-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S_ : Shape := ⟨0, ![]⟩
abbrev S8192x4096 : Shape := ⟨2, ![8192, 4096]⟩
abbrev S1024x1024 : Shape := ⟨2, ![1024, 1024]⟩

abbrev nBuf : Space → Nat
  | .hbm => 42
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S8192x4096, .f32⟩
  | .hbm, ⟨40, _⟩ => ⟨S8192x4096, .f32⟩
  | .hbm, ⟨41, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_cst_5 : Ref sig .tc := ⟨.hbm, 17, rfl⟩
abbrev main_cst_6 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_7 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_8 : Ref sig .tc := ⟨.hbm, 29, rfl⟩
abbrev main_cst_9 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_cst_5 : Ref sig .tc := ⟨.hbm, 17, rfl⟩
abbrev main_cst_6 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_7 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_8 : Ref sig .tc := ⟨.hbm, 29, rfl⟩
abbrev main_cst_9 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  The matmul kernel's body, case by case, read back as values: what the scratch accumulator and the output block
  hold after the body, as the one pure term the body's update stores (the payload `k0_pay2`) of the point's two
  input blocks and of what the scratch held before. Generic in the float instance.
-/
import proofs.«139760_j60679297958512_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-! ## What each control case leaves, as the update's payload

The body keeps a running block in the scratch. At a point with `k = 0` it first stores the zero block there; at
every point it then stores `scratch + a ⬝ b` of the two input blocks; at a point with `k = 3` it copies the scratch
to the output block. So whatever the case, the scratch ends at the update's payload of the two input blocks and of
what the scratch held when the update read it: the zero block in the first case, what the point before left in the
other two. In the last case the output block is that same value. -/

/-- Second and third point of a run of four: the scratch ends at the update of what the point before left. -/
theorem scratch_mid (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 : Vec F S1024x1024 .f32) (x1 : Vec F S1024x1024 .bf16) (xs0 : Vec F S1024x1024 .f32) :
    sout0_B_0 c i a3 h3 a4 h4 a5 h5 a6 h6 hc0 hc1 x0 x1 xs0 = k0_pay2 x0 xs0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- First point of a run of four: the scratch ends at the update of the zero block. -/
theorem scratch_first (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec F S1024x1024 .f32) (x1 : Vec F S1024x1024 .bf16) :
    sout0_A_0 c i a3 h3 a4 h4 a5 h5 a6 h6 hc0 hc1 x0 x1 = k0_pay2 x0 (k0_pay1 (F := F)) x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- Last point of a run of four: the scratch ends at the update of what the point before left, -/
theorem scratch_last (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x1024 .f32) (x1 : Vec F S1024x1024 .bf16) (xs0 : Vec F S1024x1024 .f32) :
    sout0_C_0 c i a3 h3 a4 h4 a5 h5 a6 h6 hc0 hc1 x0 x1 xs0 = k0_pay2 x0 xs0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- and the output block is the scratch read back after that update: the same value. -/
theorem out_last (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x1024 .f32) (x1 : Vec F S1024x1024 .bf16) (xs0 : Vec F S1024x1024 .f32) :
    out0_C_2 c i a3 h3 a4 h4 a5 h5 a6 h6 hc0 hc1 x0 x1 xs0 = k0_pay2 x0 xs0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Cert.KernelIdeal.Acc

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Payload.lean ====
/-
  The update the matmul body stores, read at an entry on the extended reals: the accumulator's entry plus the
  product of the two input blocks at that entry, `acc[p, q] + ∑ₖ a[p, k] · b[k, q]`. The narrowing of the left block
  to bf16 is the identity on the extended reals, and a whole-block reshape to the same shape moves nothing. The block
  the reset stores is zero at every entry.
-/
import proofs.«139760_j60679297958512_1_alg».proof.Proof.Gen.KernelIdeal.Skeleton
import proofs.«139760_j60679297958512_1_alg».proof.Proof.LibContract
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Acc

open Cert.KernelIdeal Cert.KernelIdeal.Gen

/-- The update at entry `(p, q)`: the accumulator's entry plus `∑ₖ a[p, k] · b[k, q]` over the block's 1024 columns. -/
theorem update_apply (a acc : Vec Ideal S1024x1024 .f32) (b : Vec Ideal S1024x1024 .bf16) (p q : Fin 1024) :
    k0_pay2 (F := Ideal) a acc b (ix2 p q) = acc (ix2 p q) + ∑ k : Fin 1024, a (ix2 p k) * b (ix2 k q) := by
  unfold k0_pay2
  simp only [shapeCast_self]
  rw [addf_apply]
  congr 1
  exact Cert.LibDense.matmul_plain_zero_apply 1024 1024 1024 none a b p q

/-- The reset block is zero at every entry. -/
theorem reset_apply (j : S1024x1024.Idx) : k0_pay1 (F := Ideal) j = 0 := by
  unfold k0_pay1
  simp only [shapeCast_self]
  exact Ideal.ofBits_zero_f32

end Cert.KernelIdeal.Acc

end
-- ==== Proof.Blocks.lean ====
/-
  The matmul region's two operands and their blocks. At grid point `t` of the 8 × 4 × 4 grid the body is handed
  block (t / 16, t % 4) of the left operand and block (t % 4, t / 4 % 4) of the right one, 1024 × 1024 each; an entry
  of a block is the operand's entry at block index × 1024 + the coordinate inside the block, axis by axis.
-/
import proofs.«139760_j60679297958512_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The region's left operand: the input re-laid as 8192 rows of 4096. -/
abbrev xarr (c : Dev nD) : Vec F S8192x4096 .f32 := V m c main_v18
/-- The region's right operand: the quantized weight, transposed. -/
abbrev warr (c : Dev nD) : Vec F S4096x4096 .bf16 := V m c main_v17
/-- The left operand's block at a grid point. -/
abbrev ablk (c : Dev nD) (t : Fin cfg0.N) : Vec F S1024x1024 .f32 := iblk m c 0 t
/-- The right operand's block at a grid point. -/
abbrev bblk (c : Dev nD) (t : Fin cfg0.N) : Vec F S1024x1024 .bf16 := iblk m c 1 t

/-! The grid is 8 × 4 × 4 in row-major order: point `t` has coordinates `(t / 16, t / 4 % 4, t % 4)`. The left operand's
block index is (first, third), the right operand's (third, second), the result's (first, second). -/

theorem idx0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem idx1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
theorem idx2 : ∀ t : Fin cfg0.N, win0_2.index t 0 = t.val / 16 ∧ win0_2.index t 1 = t.val / 4 % 4 :=
  (by decide +kernel : ∀ t : Fin grid0.N, win0_2.index t 0 = t.val / 16 ∧ win0_2.index t 1 = t.val / 4 % 4)

/-- Entry `(p, k)` of the left block at point `t` is the left operand at row `1024 · (t / 16) + p`, column
    `1024 · (t % 4) + k`. -/
theorem ablk_apply (c : Dev nD) (t : Fin cfg0.N) (p k : Fin 1024) (r : Fin 8192) (l : Fin 4096)
    (hr : r.val = t.val / 16 * 1024 + p.val) (hl : l.val = t.val % 4 * 1024 + k.val) :
    ablk m c t (ix2 p k) = xarr m c (ix2 r l) := by
  unfold ablk iblk
  rw [View.read_apply]
  show V m c main_v18 (((cfg0.win 0).blk t).view.emb (ix2 p k)) = V m c main_v18 (ix2 r l)
  congr 1
  funext a
  apply Fin.ext
  match a with
  | ⟨0, _⟩ => show win0_0.index t 0 * 1024 + 1 * p.val = r.val; rw [(idx0 t).1, hr]; omega
  | ⟨1, _⟩ => show win0_0.index t 1 * 1024 + 1 * k.val = l.val; rw [(idx0 t).2, hl]; omega

/-- Entry `(k, q)` of the right block at point `t` is the right operand at row `1024 · (t % 4) + k`, column
    `1024 · (t / 4 % 4) + q`. -/
theorem bblk_apply (c : Dev nD) (t : Fin cfg0.N) (k q : Fin 1024) (l n : Fin 4096)
    (hl : l.val = t.val % 4 * 1024 + k.val) (hn : n.val = t.val / 4 % 4 * 1024 + q.val) :
    bblk m c t (ix2 k q) = warr m c (ix2 l n) := by
  unfold bblk iblk
  rw [View.read_apply]
  show V m c main_v17 (((cfg0.win 1).blk t).view.emb (ix2 k q)) = V m c main_v17 (ix2 l n)
  congr 1
  funext a
  apply Fin.ext
  match a with
  | ⟨0, _⟩ => show win0_1.index t 0 * 1024 + 1 * k.val = l.val; rw [(idx1 t).1, hl]; omega
  | ⟨1, _⟩ => show win0_1.index t 1 * 1024 + 1 * q.val = n.val; rw [(idx1 t).2, hn]; omega

end Cert.KernelIdeal.Acc

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.Accum.lean ====
/-
  The accumulation across the grid's third axis. Along a run of four consecutive grid points (third coordinate
  0, 1, 2, 3; the first two fixed) the scratch block holds, after the point with third coordinate k, the tile products
  of the tiles 0 … k added one after the other onto zero:

      after k = 0 :  0 + T₀        after k + 1 :  (after k) + T₍ₖ₊₁₎ ,

  where tile j's product at entry (p, q) is  Tⱼ = ∑ over the tile's 1024 contraction indices of  x[r, ·] · w[·, n]
  with r, n the operand's row and column that entry (p, q) of the point's result block stands for. After the fourth
  point this is the whole sum over the 4096 contraction indices, and it is what that point writes to the output block.
-/
import proofs.«139760_j60679297958512_1_alg».proof.Proof.Pieces
import proofs.«139760_j60679297958512_1_alg».proof.Proof.Payload
import proofs.«139760_j60679297958512_1_alg».proof.Proof.Blocks
import proofs.«139760_j60679297958512_1_alg».proof.Proof.LibTiles

noncomputable section

open Idealize.ShloMosaic Idealize.ShloMosaic.TcCoe Idealize.ShloMosaic.ValueIdx Idealize.SL.Sem

namespace Cert.KernelIdeal.Acc

open Cert.KernelIdeal Cert.KernelIdeal.Gen

variable (m : (ℓ : Loc nD τ sig) → Buf (Elt Ideal) ℓ)

/-- The number of grid points, as a bound on a point. -/
theorem point_lt (t : Fin cfg0.N) : t.val < 128 := lt_of_lt_of_eq t.isLt (show cfg0.N = 128 from N_0)

/-! ## The operands at natural coordinates -/

/-- The left operand at row `r`, column `k` (zero outside the array: never read there). -/
def xat (c : Dev nD) (r k : ℕ) : EReal :=
  if h : r < 8192 ∧ k < 4096 then xarr m c (ix2 ⟨r, h.1⟩ ⟨k, h.2⟩) else 0

/-- The right operand at row `k`, column `n` (zero outside the array: never read there). -/
def wat (c : Dev nD) (k n : ℕ) : EReal :=
  if h : k < 4096 ∧ n < 4096 then warr m c (ix2 ⟨k, h.1⟩ ⟨n, h.2⟩) else 0

/-- Tile `j`'s share of entry `(r, n)` of the product: the contraction indices `1024 j … 1024 j + 1023`. -/
def tileDot (c : Dev nD) (r n j : ℕ) : EReal :=
  ∑ k : Fin 1024, xat m c r (j * 1024 + k.val) * wat m c (j * 1024 + k.val) n

/-- The tiles `0 … k` added one after the other onto zero. -/
def upTo (T : ℕ → EReal) : ℕ → EReal
  | 0 => 0 + T 0
  | k + 1 => upTo T k + T (k + 1)

/-! ## One point's block product is its tile's share -/

/-- At point `t` the product of the two input blocks at entry `(p, q)` is tile `t % 4`'s share of the entry of the
    product that `(p, q)` of block `(t / 16, t / 4 % 4)` stands for. -/
theorem block_product (c : Dev nD) (t : Fin cfg0.N) (p q : Fin 1024) :
    ∑ k : Fin 1024, ablk m c t (ix2 p k) * bblk m c t (ix2 k q)
      = tileDot m c (t.val / 16 * 1024 + p.val) (t.val / 4 % 4 * 1024 + q.val) (t.val % 4) := by
  have hN := point_lt t
  unfold tileDot
  refine Finset.sum_congr rfl fun k _ => ?_
  have hr : t.val / 16 * 1024 + p.val < 8192 := by have := p.isLt; omega
  have hl : t.val % 4 * 1024 + k.val < 4096 := by have := k.isLt; omega
  have hn : t.val / 4 % 4 * 1024 + q.val < 4096 := by have := q.isLt; omega
  unfold xat wat
  rw [dif_pos ⟨hr, hl⟩, dif_pos ⟨hl, hn⟩,
    ablk_apply m c t p k ⟨_, hr⟩ ⟨_, hl⟩ rfl rfl, bblk_apply m c t k q ⟨_, hl⟩ ⟨_, hn⟩ rfl rfl]

/-! ## The scratch, point by point -/

/-- At the first point of a run the scratch ends at zero plus the point's block product. -/
theorem scratch_first_at (c : Dev nD) (t : Fin cfg0.N) (h0 : t.val % 4 = 0) (p q : Fin 1024) :
    (outsAt0 m c t.val t.isLt).2 (ix2 p q) = 0 + ∑ k : Fin 1024, ablk m c t (ix2 p k) * bblk m c t (ix2 k q) := by
  have h1 : ¬t.val % 4 = 3 := by omega
  rw [outsAt0_A m c t h0 h1]
  dsimp only
  refine (congrFun (scratch_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (ablk m c t) (bblk m c t)) (ix2 p q)).trans ?_
  refine (update_apply (ablk m c t) (k0_pay1 (F := Ideal)) (bblk m c t) p q).trans ?_
  rw [reset_apply]

/-- At a later point of a run the scratch ends at what the point before left plus the point's block product. -/
theorem scratch_next_at (c : Dev nD) (t : Fin cfg0.N) (h0 : ¬t.val % 4 = 0) (p q : Fin 1024) :
    (outsAt0 m c t.val t.isLt).2 (ix2 p q)
      = (outsAt0 m c (t.val - 1) (Nat.lt_of_le_of_lt (Nat.sub_le _ _) t.isLt)).2 (ix2 p q)
        + ∑ k : Fin 1024, ablk m c t (ix2 p k) * bblk m c t (ix2 k q) := by
  by_cases h1 : t.val % 4 = 3
  · rw [outsAt0_C m c t h0 h1]
    dsimp only
    refine (congrFun (scratch_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (ablk m c t) (bblk m c t)
      (outsAt0 m c (t.val - 1) (Nat.lt_of_le_of_lt (Nat.sub_le _ _) t.isLt)).2) (ix2 p q)).trans ?_
    exact update_apply (ablk m c t) _ (bblk m c t) p q
  · rw [outsAt0_B m c t h0 h1]
    dsimp only
    refine (congrFun (scratch_mid (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (ablk m c t) (bblk m c t)
      (outsAt0 m c (t.val - 1) (Nat.lt_of_le_of_lt (Nat.sub_le _ _) t.isLt)).2) (ix2 p q)).trans ?_
    exact update_apply (ablk m c t) _ (bblk m c t) p q

/-- At the last point of a run the output block is what the scratch ends at. -/
theorem out_last_at (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  refine (out_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (ablk m c t) (bblk m c t)
      (outsAt0 m c (t.val - 1) (Nat.lt_of_le_of_lt (Nat.sub_le _ _) t.isLt)).2).trans ?_
  exact (scratch_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (ablk m c t) (bblk m c t)
      (outsAt0 m c (t.val - 1) (Nat.lt_of_le_of_lt (Nat.sub_le _ _) t.isLt)).2).symm

/-- THE INVARIANT: after point `n` the scratch holds, at entry `(p, q)`, the tiles `0 … n % 4` of the entry of the
    product that `(p, q)` of block `(n / 16, n / 4 % 4)` stands for, added in order onto zero. By induction on the
    point: within a run the block indices do not move and the tile number goes up by one. -/
theorem scratch_eq (c : Dev nD) : ∀ (n : ℕ) (hn : n < cfg0.N) (p q : Fin 1024),
    (outsAt0 m c n hn).2 (ix2 p q)
      = upTo (tileDot m c (n / 16 * 1024 + p.val) (n / 4 % 4 * 1024 + q.val)) (n % 4)
  | 0, hn, p, q => by
    rw [scratch_first_at m c ⟨0, hn⟩ rfl p q, block_product]
    rfl
  | n + 1, hn, p, q => by
    by_cases h0 : (n + 1) % 4 = 0
    · rw [scratch_first_at m c ⟨n + 1, hn⟩ h0 p q, block_product]
      dsimp only
      rw [h0]
      rfl
    · rw [scratch_next_at m c ⟨n + 1, hn⟩ h0 p q, block_product]
      dsimp only
      have ih := scratch_eq c n (Nat.lt_of_succ_lt hn) p q
      have e1 : (n + 1) / 16 = n / 16 := by omega
      have e2 : (n + 1) / 4 % 4 = n / 4 % 4 := by omega
      have e3 : (n + 1) % 4 = n % 4 + 1 := by omega
      rw [e1, e2, e3]
      exact congrArg (· + _) ih

/-! ## The whole sum -/

/-- Four tiles added in order onto zero are the sum over all 4096 contraction indices. -/
theorem upTo_three (c : Dev nD) (r : Fin 8192) (n : Fin 4096) :
    upTo (tileDot m c r.val n.val) 3 = ∑ k : Fin 4096, xarr m c (ix2 r k) * warr m c (ix2 k n) := by
  refine ((Cert.LibTiles.tile_sum_4096_of (fun k : Fin 4096 => xarr m c (ix2 r k) * warr m c (ix2 k n))
    (fun j : Fin 4 => tileDot m c r.val n.val j.val) (fun j => ?_)).trans rfl).symm
  unfold tileDot
  refine Finset.sum_congr rfl fun k _ => ?_
  have hl := Cert.LibTiles.tile_lt_4096 j k
  unfold xat wat
  rw [dif_pos ⟨r.isLt, hl⟩, dif_pos ⟨hl, n.isLt⟩]

end Cert.KernelIdeal.Acc

end
-- ==== Proof.Final.lean ====
/-
  The result array of the matmul region, and the program's result. The output block (i, j) is written back once, at
  the last point of its run of four, with the scratch's contents there: at entry (p, q) the sum over all 4096
  contraction indices of x[1024 i + p, ·] · w[·, 1024 j + q]. The 8 × 4 output blocks tile the array, so the array
  ends holding the product of the two operands, entry by entry. The one host line after the region re-lays it as
  [4, 2048, 4096].
-/
import proofs.«139760_j60679297958512_1_alg».proof.Proof.Accum
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The product of the region's two operands: entry `(r, n)` is `∑ₖ x[r, k] · w[k, n]` over the 4096 columns. -/
def prod (c : Dev nD) : Vec Ideal S8192x4096 .f32 :=
  fun j => ∑ k : Fin 4096, xarr m c (ix2 (j 0) k) * warr m c (ix2 k (j 1))

/-- What a writing-back point writes is its block of the product. -/
theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  have hN := point_lt t
  show (cfg0.win 2).cut (grid0.coords t) ((dats m 0 c).after 2 t) = _
  rw [after0_2, out_last_at m c t h3]
  refine funext fun (y : S1024x1024.Idx) => ?_
  obtain ⟨p, q, rfl⟩ : ∃ (p q : Fin 1024), y = ix2 p q := ⟨y 0, y 1, eq_ix2 y⟩
  have hr : t.val / 16 * 1024 + p.val < 8192 := by have := p.isLt; omega
  have hn : t.val / 4 % 4 * 1024 + q.val < 4096 := by have := q.isLt; omega
  have e0 : ((cfg0.win 2).blk t).view.emb (ix2 p q) 0 = (⟨t.val / 16 * 1024 + p.val, hr⟩ : Fin 8192) :=
    Fin.ext (by show win0_2.index t 0 * 1024 + 1 * p.val = t.val / 16 * 1024 + p.val; rw [(idx2 t).1]; omega)
  have e1 : ((cfg0.win 2).blk t).view.emb (ix2 p q) 1 = (⟨t.val / 4 % 4 * 1024 + q.val, hn⟩ : Fin 4096) :=
    Fin.ext (by show win0_2.index t 1 * 1024 + 1 * q.val = t.val / 4 % 4 * 1024 + q.val; rw [(idx2 t).2]; omega)
  show (outsAt0 m c t.val t.isLt).2 (ix2 p q) = prod m c (((cfg0.win 2).blk t).view.emb (ix2 p q))
  rw [scratch_eq m c t.val t.isLt p q, h3]
  refine (upTo_three m c ⟨_, hr⟩ ⟨_, hn⟩).trans ?_
  show _ = ∑ k : Fin 4096, xarr m c (ix2 (((cfg0.win 2).blk t).view.emb (ix2 p q) 0) k)
      * warr m c (ix2 k (((cfg0.win 2).blk t).view.emb (ix2 p q) 1))
  rw [e0, e1]

/-- An entry of the array is in point `t`'s block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v19).slice (win0_2.rect t)).set ↔ _
  rw [View.set_slice_whole, Rect.mem_set_unit]
  exact Iff.rfl

/-- Every entry is in the block some writing-back point writes: entry `(r, n)` in block `(r / 1024, n / 1024)`, written
    at the last point of that block's run. -/
theorem covered (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hlt : (i 0).val / 1024 * 16 + (i 1).val / 1024 * 4 + 3 < cfg0.N := by
    rw [show cfg0.N = 128 from N_0]; omega
  refine ⟨⟨_, hlt⟩, (flush0_2 _).mpr (by show ((i 0).val / 1024 * 16 + (i 1).val / 1024 * 4 + 3) % 4 = 3; omega), ?_⟩
  rw [mem_blk]
  intro a
  match a with
  | ⟨0, _⟩ =>
    show win0_2.index ⟨_, hlt⟩ 0 * 1024 ≤ (i 0).val ∧ (i 0).val < win0_2.index ⟨_, hlt⟩ 0 * 1024 + 1024
    rw [(idx2 ⟨_, hlt⟩).1]; dsimp only; omega
  | ⟨1, _⟩ =>
    show win0_2.index ⟨_, hlt⟩ 1 * 1024 ≤ (i 1).val ∧ (i 1).val < win0_2.index ⟨_, hlt⟩ 1 * 1024 + 1024
    rw [(idx2 ⟨_, hlt⟩).2]; dsimp only; omega

/-- So the region's result array ends holding the product. -/
theorem final (c : Dev nD) : (dats m 0 c).arrAt 2 cfg0.N = prod m c :=
  (dats m 0 c).arrAt_eq_of_cover 2 (prod m c) (flushed_eq m c) covered

/-- The host line after the region re-lays the result array as [4, 2048, 4096]. -/
theorem tail_eq (c : Dev nD) :
    Pipeline.afterTail₀ cfgs (dats m) 0 (V0 m) [hostOps1] c main_v20
      = shapeCast S4x2048x4096 (prod m c) shapeCasts_S8192x4096_S4x2048x4096 := by
  unfold Pipeline.afterTail₀
  show StableHlo.after hostOps1 _ (Proc.devRef .tc main_v20) = _
  after_results
  rw [show Pipeline.withArrays (cfgs 0).spec c (V0 m c) (fun w => (dats m 0 c).arrAt w (cfgs 0).N) (Proc.devRef .tc main_v19) = prod m c from
    (Pipeline.withArrays_arr spec0 launch0.win.arr_inj c (V0 m c) (fun w => (dats m 0 c).arrAt w cfg0.N) 2).trans (final m c)]
  rfl

/-- THE KERNEL'S RUN, READ: the program's result is the product of the two operands re-laid as [4, 2048, 4096]; the
    arguments end unchanged. -/
theorem run : θ_run defs (onTc (τ := τ) (main (F := Ideal))) ⟨m, fun _ => 0, ρ⟩ fun r => ∀ c : Dev nD,
      r.2.mem ((c.tc : Thread nD τ).loc main_v20) = shapeCast S4x2048x4096 (prod m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.HostReads.lean ====
/-
  The matmul region's two operands as the host lines before the region compute them from the arguments: the left one
  is the input [4, 2048, 4096] re-laid as [8192, 4096] (row 2048 b + s is row s of batch b); the right one is the
  ternary-quantized weight, transposed (and narrowed to bf16, which is the identity on the extended reals).
-/
import proofs.«139760_j60679297958512_1_alg».proof.Proof.Gen.KernelIdeal.Frame
import proofs.«139760_j60679297958512_1_alg».proof.Proof.Blocks
import Idealize.ShloMosaic.Lib.StableHlo.Run
import Idealize.ShloMosaic.Lib.ValueLayout
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

open Idealize.ShloMosaic.StableHlo

/-- The ternary quantization of the weight, as the host computes it: every entry scaled by 1 / (mean |w| + ε) after
    thresholding at ± 1/2 to {-1, 0, 1}, rounded to the nearest integer (ties to the even one) and clipped to [-1, 1]. -/
def quant (w : Vec F S4096x4096 .f32) : Vec F S4096x4096 .f32 :=
  (minimumf (broadcastInDim S4096x4096 ![] bcast_S_S4096x4096 (id (constant S_ .f32 0x3F800000#32))) (maximumf (broadcastInDim S4096x4096 ![] bcast_S_S4096x4096 (id (constant S_ .f32 0xBF800000#32))) (Host.roundeven (mulf (broadcastInDim S4096x4096 ![] bcast_S_S4096x4096 (Host.divf (constant S_ .f32 0x3F800000#32) (addf (Host.divf (Host.reduceAdd (Host.absf w) (constant S_ .f32 0x00000000#32) reducesTo_S4096x4096_S_d0_1 h_S_) (constant S_ .f32 0x4B800000#32)) (constant S_ .f32 0x33D6BF95#32)))) (id (select (cmpf .ogt w (broadcastInDim S4096x4096 ![] bcast_S_S4096x4096 (constant S_ .f32 0x3F000000#32))) (broadcastInDim S4096x4096 ![] bcast_S_S4096x4096 (constant S_ .f32 0x3F800000#32)) (select (cmpf .olt w (broadcastInDim S4096x4096 ![] bcast_S_S4096x4096 (constant S_ .f32 0xBF000000#32))) (broadcastInDim S4096x4096 ![] bcast_S_S4096x4096 (constant S_ .f32 0xBF800000#32)) (broadcastInDim S4096x4096 ![] bcast_S_S4096x4096 (constant S_ .f32 0x00000000#32)))))))))

/-- The left operand is the input re-laid as 8192 rows. -/
theorem xarr_eq (c : Dev nD) :
    xarr m c = shapeCast S8192x4096 (m ((c : Thread nD τ).loc main_arg0)) shapeCasts_S4x2048x4096_S8192x4096 := by
  dsimp only [xarr, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 4000000 in
/-- The right operand is the quantized weight, transposed. -/
theorem warr_eq (c : Dev nD) :
    warr m c = truncf .bf16 (transpose S4096x4096 [1, 0] (quant (m ((c : Thread nD τ).loc main_arg1))) transposes_S4096x4096_S4096x4096_1_0) bitsLt_bf16_f32 := by
  dsimp only [warr, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp <;> rfl

/-- Row `2048 b + s` of the left operand is row `s` of batch `b` of the input. -/
theorem xarr_apply (c : Dev nD) (b : Fin 4) (s : Fin 2048) (k : Fin 4096) (r : Fin 8192) (hr : r.val = b.val * 2048 + s.val) :
    xarr m c (ix2 r k) = m ((c : Thread nD τ).loc main_arg0) (ix3 b s k) := by
  rw [xarr_eq]
  refine shapeCast_apply _ _ (ix2 r k) (ix3 b s k) ?_
  rw [Shape.rowMajor_val_two, Shape.rowMajor_val_three]
  show (b.val * 2048 + s.val) * 4096 + k.val = r.val * 4096 + k.val
  rw [hr]

end Cert.KernelIdeal.Acc

namespace Cert.KernelIdeal.Acc

open Cert.KernelIdeal Cert.KernelIdeal.Gen

/-- On the extended reals entry `(k, n)` of the right operand is entry `(n, k)` of the quantized weight. -/
theorem warr_apply (m : (ℓ : Loc nD τ sig) → Buf (Elt Ideal) ℓ) (c : Dev nD) (k n : Fin 4096) :
    warr m c (ix2 k n) = quant (F := Ideal) (m ((c : Thread nD τ).loc main_arg1)) (ix2 n k) := by
  rw [warr_eq]
  show transpose S4096x4096 [1, 0] (quant (F := Ideal) (m ((c : Thread nD τ).loc main_arg1))) transposes_S4096x4096_S4096x4096_1_0 (ix2 k n) = _
  exact transpose_ix2_apply _ _ k n

end Cert.KernelIdeal.Acc

end
-- ==== Proof.RefSide.lean ====
/-
  The reference, read at an entry on the extended reals: jnp's einsum 'bsi,oi->bso' of the input with the
  ternary-quantized weight is, at (b, s, o), the sum over the 4096 input features of x[b, s, i] · wq[o, i].
-/
import proofs.«139760_j60679297958512_1_alg».proof.Proof.Gen.ReferenceIdeal.Run
import proofs.«139760_j60679297958512_1_alg».proof.Proof.Gen.ReferenceIdeal.Read

noncomputable section

open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read

/-- The reference's result at `(b, s, o)`: `∑ᵢ x[b, s, i] · wq[o, i]`, `wq` the quantized weight. -/
theorem result_apply (x : (⟨S4x2048x4096, .f32⟩ : BufTy).Contents (Elt Ideal)) (w : (⟨S4096x4096, .f32⟩ : BufTy).Contents (Elt Ideal))
    (b : Fin 4) (s : Fin 2048) (o : Fin 4096) :
    val_main_v16 (F := Ideal) x w (ix3 b s o) = ∑ k : Fin 4096, x (ix3 b s k) * val_main_v15 (F := Ideal) w (ix2 o k) := by
  rw [val_main_v16_apply]
  refine Finset.sum_congr rfl fun k _ => ?_
  have el : lidx_main_v16 (ix3 b s o) k = ix3 b s k :=
    funext fun a => Fin.ext (by match a with | ⟨0, _⟩ => rfl | ⟨1, _⟩ => rfl | ⟨2, _⟩ => rfl)
  have er : ridx_main_v16 (ix3 b s o) k = ix2 o k :=
    funext fun a => Fin.ext (by match a with | ⟨0, _⟩ => rfl | ⟨1, _⟩ => rfl)
  rw [el, er]

/-- The reference's run: its result is that einsum of the arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = val_main_v16 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v16_eq _ _), (h c).2⟩)
    (Cert.ReferenceIdeal.Value.run (F := Ideal) m ρ)

end Cert.ReferenceIdeal.RefValue

end
-- ==== Proof.Bridge.lean ====
/-
  The bridge: the kernel's result and the reference's are one function of the arguments on the extended reals.

  Kernel: the input re-laid as [8192, 4096] times the transposed quantized weight, accumulated over four tiles of the
  contraction axis, re-laid as [4, 2048, 4096]: at (b, s, o) the sum over i of x[b, s, i] · wq[o, i].
  Reference: jnp's einsum 'bsi,oi->bso' of the input with the quantized weight: the same sum.
  The quantization is the same chain of host operations in both programs, so nothing of it is opened.
  Only the regrouping of a finite sum into tiles is used, which holds in any commutative monoid: the finiteness of the
  inputs is not needed.
-/
import proofs.«139760_j60679297958512_1_alg».proof.Defs
import proofs.«139760_j60679297958512_1_alg».proof.Proof.Gen.Kernel.Frame
import proofs.«139760_j60679297958512_1_alg».proof.Proof.Gen.Pre_finite_inputs
import proofs.«139760_j60679297958512_1_alg».proof.Proof.Final
import proofs.«139760_j60679297958512_1_alg».proof.Proof.HostReads
import proofs.«139760_j60679297958512_1_alg».proof.Proof.RefSide

noncomputable section

open Idealize.ShloMosaic Idealize.ShloMosaic.TcCoe Idealize.ShloMosaic.ValueIdx Idealize.SL.Sem

namespace Cert.KernelIdeal.Acc

open Cert.KernelIdeal Cert.KernelIdeal.Gen

variable (m : (ℓ : Loc nD τ sig) → Buf (Elt Ideal) ℓ)

/-- The input argument, as an array of its literal shape. -/
abbrev xin (c : Dev nD) : Vec Ideal S4x2048x4096 .f32 := m ((c : Thread nD τ).loc main_arg0)
/-- The weight argument, as an array of its literal shape. -/
abbrev win (c : Dev nD) : Vec Ideal S4096x4096 .f32 := m ((c : Thread nD τ).loc main_arg1)

/-- The kernel's result at `(b, s, o)`: row `2048 b + s` of the product, which is `∑ᵢ x[b, s, i] · wq[o, i]`. -/
theorem result_apply (c : Dev nD) (b : Fin 4) (s : Fin 2048) (o : Fin 4096) :
    shapeCast S4x2048x4096 (prod m c) shapeCasts_S8192x4096_S4x2048x4096 (ix3 b s o)
      = ∑ k : Fin 4096, xin m c (ix3 b s k) * quant (F := Ideal) (win m c) (ix2 o k) := by
  have hr : b.val * 2048 + s.val < 8192 := by have := b.isLt; have := s.isLt; omega
  rw [shapeCast_apply _ _ (ix3 b s o) (ix2 ⟨b.val * 2048 + s.val, hr⟩ o)
    (by rw [Shape.rowMajor_val_two, Shape.rowMajor_val_three]; rfl)]
  show ∑ k : Fin 4096, xarr m c (ix2 ⟨b.val * 2048 + s.val, hr⟩ k) * warr m c (ix2 k o) = _
  refine Finset.sum_congr rfl fun k _ => ?_
  rw [xarr_apply m c b s k ⟨_, hr⟩ rfl, warr_apply m c k o]

end Cert.KernelIdeal.Acc

namespace Cert.Proof.Bridge

/-- The two programs quantize the weight by the same operations. -/
theorem quant_eq (w : Vec Ideal Cert.KernelIdeal.S4096x4096 .f32) :
    Cert.KernelIdeal.Acc.quant (F := Ideal) w = Cert.ReferenceIdeal.Read.val_main_v15 (F := Ideal) w := rfl

/-- The kernel's result is the reference's einsum of the same arguments. -/
theorem result_eq (m : (ℓ : Loc Cert.KernelIdeal.nD Cert.KernelIdeal.τ Cert.KernelIdeal.sig) → Buf (Elt Ideal) ℓ) (c : Dev Cert.KernelIdeal.nD) :
    shapeCast Cert.KernelIdeal.S4x2048x4096 (Cert.KernelIdeal.Acc.prod m c) Cert.KernelIdeal.Facts₀.shapeCasts_S8192x4096_S4x2048x4096
      = Cert.ReferenceIdeal.Read.val_main_v16 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨b, s, o, rfl⟩ : ∃ (b : Fin 4) (s : Fin 2048) (o : Fin 4096), i = ix3 b s o := ⟨i 0, i 1, i 2, eq_ix3 i⟩
  rw [Cert.KernelIdeal.Acc.result_apply m c b s o]
  refine Eq.trans ?_ (Cert.ReferenceIdeal.RefValue.result_apply _ _ b s o).symm
  rw [quant_eq]

end Cert.Proof.Bridge

/-! ## The claims -/

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs run; the kernel's result is the tiled product re-laid, the reference's is the einsum, of arguments
    that agree: one function. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact (Cert.Proof.Bridge.result_eq m c).symm

end Cert.Proof.Claims

end
-- ==== Proof.lean ====
/-
  The proof of `Cert.Claim`: a ternary-weight linear layer, x[4, 2048, 4096] against the quantized weight
  wq[4096, 4096], as a tiled matmul kernel (1024³ tiles, an f32 accumulator carried over the four tiles of the
  contraction axis) against jnp's einsum 'bsi,oi->bso'.

  The three frames are the generated frame runs (the reference's is its generated run with the result dropped). The
  ideal pass rewrote nothing, so `preserves` is trivial. `algebraic`: the kernel's accumulator after the k-th tile
  of a run is the first k + 1 tile products added in order onto zero (by induction on the grid point), the last
  point of each run writes the whole sum to its output block, the blocks tile the result, and the host lines around
  the region re-lay the input and the result and transpose the quantized weight; so both programs compute
  ∑ᵢ x[b, s, i] · wq[o, i] at (b, s, o), the quantization being the same host operations on both sides.
-/
import proofs.«139760_j60679297958512_1_alg».proof.Defs
import proofs.«139760_j60679297958512_1_alg».proof.Proof.Gen.Kernel
import proofs.«139760_j60679297958512_1_alg».proof.Proof.Gen.KernelIdeal
import proofs.«139760_j60679297958512_1_alg».proof.Proof.Gen.ReferenceIdeal
import proofs.«139760_j60679297958512_1_alg».proof.Proof.Gen.Pre_finite_inputs
import proofs.«139760_j60679297958512_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
